-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S1600000 : Shape := ⟨1, ![1600000]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x256 .f32) (main_arg1 : IVec S1600000 32) (main_arg2 : IVec S1600000 32) (main_arg3 : FVec F S256x64 .f32) (main_arg4 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x256 : Shape := ⟨2, ![50000, 256]⟩
abbrev S1600000 : Shape := ⟨1, ![1600000]⟩
abbrev S256x64 : Shape := ⟨2, ![256, 64]⟩
abbrev S64 : Shape := ⟨1, ![64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x64 : Shape := ⟨2, ![50000, 64]⟩
abbrev S1600000x64 : Shape := ⟨2, ![1600000, 64]⟩
abbrev S25000x128 : Shape := ⟨2, ![25000, 128]⟩
abbrev S25000x2 : Shape := ⟨2, ![25000, 2]⟩
abbrev S25000x2x1 : Shape := ⟨3, ![25000, 2, 1]⟩
abbrev S25000x2x64 : Shape := ⟨3, ![25000, 2, 64]⟩
abbrev S128 : Shape := ⟨1, ![128]⟩
abbrev S1x128 : Shape := ⟨2, ![1, 128]⟩
abbrev S5000x256 : Shape := ⟨2, ![5000, 256]⟩
abbrev S5000x1 : Shape := ⟨2, ![5000, 1]⟩
abbrev S5000x64 : Shape := ⟨2, ![5000, 64]⟩
abbrev S5000x128 : Shape := ⟨2, ![5000, 128]⟩

abbrev nBuf : Space → Nat
  | .hbm => 56
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S50000, .f32⟩
  | .hbm, ⟨9, _⟩ => ⟨S1600000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x64, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .bf16⟩
  | .hbm, ⟨40, _⟩ => ⟨S1600000x64, .f32⟩
  | .hbm, ⟨41, _⟩ => ⟨S_, .f32⟩
  | .hbm, ⟨42, _⟩ => ⟨S50000x64, .f32⟩
  | .hbm, ⟨43, _⟩ => ⟨S1600000x1, .i32⟩
  | .hbm, ⟨44, _⟩ => ⟨S50000x64, .f32⟩
  | .hbm, ⟨45, _⟩ => ⟨S25000x128, .f32⟩
  | .hbm, ⟨46, _⟩ => ⟨S25000x2, .f32⟩
  | .hbm, ⟨47, _⟩ => ⟨S25000x2x1, .f32⟩
  | .hbm, ⟨48, _⟩ => ⟨S25000x2x64, .f32⟩
  | .hbm, ⟨49, _⟩ => ⟨S25000x128, .f32⟩
  | .hbm, ⟨50, _⟩ => ⟨S128, .f32⟩
  | .hbm, ⟨51, _⟩ => ⟨S1x128, .f32⟩
  | .hbm, ⟨52, _⟩ => ⟨S25000x128, .f32⟩
  | .hbm, ⟨53, _⟩ => ⟨S25000x128, .f32⟩
  | .hbm, ⟨54, _⟩ => ⟨S50000x64, .f32⟩
  | .hbm, ⟨55, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x64, .f32⟩
  | .local _ .vmem, ⟨5, _⟩ => ⟨S5000x64, .bf16⟩
  | .local _ .vmem, ⟨6, _⟩ => ⟨S5000x64, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_cst_1 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_2 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_v7 : Ref sig .tc := ⟨.hbm, 18, rfl⟩
abbrev main_call0_cst_3 : Ref sig .tc := ⟨.hbm, 19, rfl⟩
abbrev main_call0_v8 : Ref sig .tc := ⟨.hbm, 20, rfl⟩
abbrev main_call0_v9 : Ref sig .tc := ⟨.hbm, 21, rfl⟩
abbrev main_call0_cst_4 : Ref sig .tc := ⟨.hbm, 22, rfl⟩
abbrev main_call0_call1_v0 : Ref sig .tc := ⟨.hbm, 23, rfl⟩
abbrev main_call0_call1_v1 : Ref sig .tc := ⟨.hbm, 24, rfl⟩
abbrev main_call0_v10 : Ref sig .tc := ⟨.hbm, 25, rfl⟩
abbrev main_call0_cst_5 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_c : Ref sig .tc := ⟨.hbm, 31, rfl⟩
abbrev main_call0_v15 : Ref sig .tc := ⟨.hbm, 32, rfl⟩
abbrev main_call0_v16 : Ref sig .tc := ⟨.hbm, 33, rfl⟩
abbrev main_call0_c_6 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_cst_7 : Ref sig .tc := ⟨.hbm, 41, rfl⟩
abbrev main_call0_v23 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_v33_0 : Ref sig .tc := ⟨.hbm, 52, rfl⟩
abbrev main_call0_v33_1 : Ref sig .tc := ⟨.hbm, 53, rfl⟩
abbrev main_v0_0 : Ref sig .tc := ⟨.hbm, 54, rfl⟩
abbrev main_v0_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bitsLt_bf16_f32 : FTy.bits .bf16 < FTy.bits .f32
  bcast_S_S50000x64 : S_.BroadcastsInDim S50000x64 (![] : Fin 0 → Fin S50000x64.rank)
  shapeCasts_S50000x64_S25000x128 : S50000x64.ShapeCasts S25000x128
  shapeCasts_S50000_S25000x2 : S50000.ShapeCasts S25000x2
  bcast_S25000x2_S25000x2x1_0_1 : S25000x2.BroadcastsInDim S25000x2x1 (![0, 1] : Fin 2 → Fin S25000x2x1.rank)
  bcast_S25000x2x1_S25000x2x64_0_1_2 : S25000x2x1.BroadcastsInDim S25000x2x64 (![0, 1, 2] : Fin 3 → Fin S25000x2x64.rank)
  shapeCasts_S25000x2x64_S25000x128 : S25000x2x64.ShapeCasts S25000x128
  concatenates_S64_S64_S128_d0 : Shape.Concatenates [S64, S64] S128 0
  shapeCasts_S128_S1x128 : S128.ShapeCasts S1x128
  shapeCasts_S25000x128_S50000x64 : S25000x128.ShapeCasts S50000x64
  inb_S5000x256_S5000x256_0_0 : ∀ a, (![0, 0] : Fin 2 → Nat) a + S5000x256.size a ≤ S5000x256.size a
  h_S5000x256 : 0 < S5000x256.numel
  inb_S256x64_S256x64_0_0 : ∀ a, (![0, 0] : Fin 2 → Nat) a + S256x64.size a ≤ S256x64.size a
  h_S256x64 : 0 < S256x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S25000x128.size a
  hwx1_3 : ∀ i : grid1.Coords, EltTy.bits .f32 = 32 ∨ (Rect.block (s := S25000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S25000x128.size a
  hwx1_4 : ∀ i : grid1.Coords, EltTy.bits .f32 = 32 ∨ (Rect.block (s := S25000x128) S5000x128.size (cc1_transform_4 i) (hinb1_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v33_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v33_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x256 : Shape := ⟨2, ![50000, 256]⟩
abbrev S1600000 : Shape := ⟨1, ![1600000]⟩
abbrev S256x64 : Shape := ⟨2, ![256, 64]⟩
abbrev S64 : Shape := ⟨1, ![64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x64 : Shape := ⟨2, ![50000, 64]⟩
abbrev S1600000x64 : Shape := ⟨2, ![1600000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S50000, .f32⟩
  | .hbm, ⟨9, _⟩ => ⟨S1600000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x256, .f32⟩
  | .hbm, ⟨31, _⟩ => ⟨S50000x256, .f32⟩
  | .hbm, ⟨32, _⟩ => ⟨S50000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S50000x64, .f32⟩
  | .hbm, ⟨44, _⟩ => ⟨S1600000x1, .i32⟩
  | .hbm, ⟨45, _⟩ => ⟨S50000x64, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S_, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S50000x64, .f32⟩
  | .hbm, ⟨57, _⟩ => ⟨S50000x64, .i1⟩
  | .hbm, ⟨58, _⟩ => ⟨S_, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_cst_10 : Ref sig .tc := ⟨.hbm, 59, rfl⟩
abbrev main_call3_v0 : Ref sig .tc := ⟨.hbm, 60, rfl⟩
abbrev main_call3_v1 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1600000x1_S1600000_n_0_0_1_wf : ScatterDims.WF S50000 S1600000x1 S1600000 [] [0] [0] 1
  dot_S50000x256_S256x64_S50000x64_1_0_0_1_n_n_wf : DotDims.WF S50000x256 S256x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.Spec.lean ====
/-
  The graph-convolution layer's arithmetic, stated once over plain functions into the extended reals.

  A node's feature row is the product of its input row with the weight matrix, scaled by the node's
  out-degree normaliser; `feat` spells it with the scale applied AFTER the product (one multiplication per
  output entry). After the edges are gathered and summed per destination, the layer's output is
  `relu (agg · nd + b)` (`post`), and its thresholded copy is `1` where the output is at least one half and `0`
  elsewhere (`thr`).
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- The row of a matrix index, as a number below the row count. -/
abbrev rowOf {a b : Nat} (i : (⟨2, ![a, b]⟩ : Shape).Idx) : Fin a := ⟨(i 0).val, idx2_lt0 i⟩
/-- The column of a matrix index, as a number below the column count. -/
abbrev colOf {a b : Nat} (i : (⟨2, ![a, b]⟩ : Shape).Idx) : Fin b := ⟨(i 1).val, idx2_lt1 i⟩

theorem ix2_rowOf_colOf {a b : Nat} (i : (⟨2, ![a, b]⟩ : Shape).Idx) : ix2 (rowOf i) (colOf i) = i :=
  (eq_ix2 i).symm

/-- Entry `(p, q)` of the scaled product: `(∑ k, x (p, k) · w (k, q)) · col (p, 0)`. -/
def feat (x : (⟨2, ![50000, 256]⟩ : Shape).Idx → EReal) (col : (⟨2, ![50000, 1]⟩ : Shape).Idx → EReal)
    (w : (⟨2, ![256, 64]⟩ : Shape).Idx → EReal) : (⟨2, ![50000, 64]⟩ : Shape).Idx → EReal :=
  fun i => (∑ k : Fin 256, x (ix2 (rowOf i) k) * w (ix2 k (colOf i))) * col (ix2 (rowOf i) (0 : Fin 1))

/-- The rectified affine map, entry by entry, in the paired layout `[25000, 128]`: the bias is a single row. -/
def post (a n : (⟨2, ![25000, 128]⟩ : Shape).Idx → EReal) (b : (⟨2, ![1, 128]⟩ : Shape).Idx → EReal) :
    (⟨2, ![25000, 128]⟩ : Shape).Idx → EReal :=
  fun i => max (a i * n i + b (ix2 (0 : Fin 1) (colOf i))) (Ideal.ofBits .f32 0x00000000#32)

/-- The layer's output in the node layout `[50000, 64]`: entry `(p, q)` is `max (agg (p, q) · nd p + b q) 0`. -/
def out (agg : (⟨2, ![50000, 64]⟩ : Shape).Idx → EReal) (nd : (⟨1, ![50000]⟩ : Shape).Idx → EReal)
    (b : (⟨1, ![64]⟩ : Shape).Idx → EReal) : (⟨2, ![50000, 64]⟩ : Shape).Idx → EReal :=
  fun i => max (agg i * nd (ix1 (rowOf i)) + b (ix1 (colOf i))) (Ideal.ofBits .f32 0x00000000#32)

/-- The threshold at one half: `1` where the entry is at least one half, `0` elsewhere. -/
def thr {s : Shape} (h : s.Idx → EReal) : s.Idx → EReal :=
  fun i => Scalar.select (FloatOps.cmpf (F := Ideal) (φ := .f32) .oge (h i) (Ideal.ofBits .f32 0x3F000000#32))
    (Ideal.ofBits .f32 0x3F800000#32) (Ideal.ofBits .f32 0x00000000#32)

end Cert.Gcn

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.Region0.lean ====
/-
  What the first pallas_call leaves in its output array: the scaled product, whatever the region was entered with.
-/
import proofs.«417162_j76201309766159_3_alg».proof.Proof.Gen.KernelIdeal.Frame
import proofs.«417162_j76201309766159_3_alg».proof.Proof.Spec
import proofs.«417162_j76201309766159_3_alg».proof.Proof.LibPlainDot
import proofs.«417162_j76201309766159_3_alg».proof.Proof.LibRowReduce
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## The body's value at an entry of its block -/

/-- The printed dimension numbers of the body's product are those of a plain product `[5000, 256] × [256, 64]`. -/
theorem plainDot : Cert.Lib.PlainDot dot_S5000x256_S256x64_S5000x64_1_0_0_1_n_n :=
  ⟨rfl, rfl, rfl, rfl, rfl, rfl⟩

/-- Entry `(p, q)` of what the body stores: row `p` of its first block times column `q` of the weights, scaled by
    entry `(p, 0)` of its column block. The roundings to the narrower format are the identity on the extended reals. -/
theorem pay_apply (x0 : Vec Ideal S5000x256 .f32) (x2 : Vec Ideal S256x64 .f32) (x5 : Vec Ideal S5000x1 .f32)
    (p : Fin 5000) (q : Fin 64) :
    (k0_pay1 (F := Ideal) x0 x2 x5) (ix2 p q)
      = (∑ k : Fin 256, x0 (ix2 p k) * x2 (ix2 k q)) * x5 (ix2 p (0 : Fin 1)) := by
  unfold k0_pay1
  refine (congrArg₂ (fun a b : EReal => a * b)
    (plainDot.matmul_zero_apply none (truncf .bf16 x0 bitsLt_bf16_f32) (truncf .bf16 x2 bitsLt_bf16_f32) p q)
    ((Cert.RowReduce.broadcastTo_a1_ab_apply (shapeCast S5000x1 x5 shapeCasts_S5000x1_S5000x1)
        broadcasts_S5000x1_S5000x64 p q).trans
      (congrFun (shapeCast_self x5 shapeCasts_S5000x1_S5000x1) (ix2 p (0 : Fin 1))))).trans ?_
  rfl

/-- The scaled product at an index given by its row and column as numbers. -/
theorem feat_at (x : (⟨2, ![50000, 256]⟩ : Shape).Idx → EReal) (col : (⟨2, ![50000, 1]⟩ : Shape).Idx → EReal)
    (w : (⟨2, ![256, 64]⟩ : Shape).Idx → EReal) (i : (⟨2, ![50000, 64]⟩ : Shape).Idx) (r : Fin 50000) (q : Fin 64)
    (h0 : (i 0).val = r.val) (h1 : (i 1).val = q.val) :
    Cert.Gcn.feat x col w i = (∑ k : Fin 256, x (ix2 r k) * w (ix2 k q)) * col (ix2 r (0 : Fin 1)) := by
  have hi : i = ix2 r q := funext fun a => Fin.ext (match a with | ⟨0, _⟩ => h0 | ⟨1, _⟩ => h1)
  subst hi
  rfl

/-! ## The blocks the body reads and writes, as parts of the arrays -/

-- the buffer contents the region is entered with, on every core
variable (V : (c : Dev nD) → (b : Ref sig .tc) → Buf (Elt Ideal) ((c : Thread nD τ).loc b))

theorem hz : (![0, 0] : Fin 2 → Nat) = fun _ => 0 :=
  funext fun a => match a with | ⟨0, _⟩ => rfl | ⟨1, _⟩ => rfl

/-- The printed index maps, decided over the ten grid points: the row blocks of the first two operands and of the
    output move with the point, the weights' block stays at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the first operand's block at point `t` is entry `(5000 t + p, k)` of the operand. -/
theorem blk0_apply (c : Dev nD) (t : Fin cfg0.N) (p : Fin 5000) (k : Fin 256) (r : Fin 50000)
    (hr : r.val = t.val * 5000 + p.val) :
    (iblk0 (F := Ideal) V c 0 t (ix2 p k) : EReal) = (V c main_arg0 : S50000x256.Idx → EReal) (ix2 r k) := by
  obtain ⟨e0, e1, -⟩ := idx_facts t
  show (V c main_arg0 : S50000x256.Idx → EReal) (((cfg0.win 0).blk t).view.emb (ix2 p k)) = _
  refine congrArg (V c main_arg0 : S50000x256.Idx → EReal) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- Entry `(p, 0)` of the scale column's block at point `t` is entry `(5000 t + p, 0)` of the column. -/
theorem blk1_apply (c : Dev nD) (t : Fin cfg0.N) (p : Fin 5000) (r : Fin 50000)
    (hr : r.val = t.val * 5000 + p.val) :
    (iblk0 (F := Ideal) V c 1 t (ix2 p (0 : Fin 1)) : EReal)
      = (V c main_call0_v13 : S50000x1.Idx → EReal) (ix2 r (0 : Fin 1)) := by
  obtain ⟨-, -, e0, e1, -⟩ := idx_facts t
  show (V c main_call0_v13 : S50000x1.Idx → EReal) (((cfg0.win 1).blk t).view.emb (ix2 p (0 : Fin 1))) = _
  refine congrArg (V c main_call0_v13 : S50000x1.Idx → EReal) (funext fun a => Fin.ext ?_)
  match a with
  | ⟨0, _⟩ => show win0_1.index t (0 : Fin 2) * 5000 + 1 * p.val = r.val; omega
  | ⟨1, _⟩ => show win0_1.index t (1 : Fin 2) * 1 + 1 * 0 = 0; omega

/-- The weights' block at every point is the whole weight matrix. -/
theorem blk2_apply (c : Dev nD) (t : Fin cfg0.N) (k : Fin 256) (q : Fin 64) :
    (iblk0 (F := Ideal) V c 2 t (ix2 k q) : EReal) = (V c main_arg3 : S256x64.Idx → EReal) (ix2 k q) := by
  obtain ⟨-, -, -, -, e0, e1, -⟩ := idx_facts t
  show (V c main_arg3 : S256x64.Idx → EReal) (((cfg0.win 2).blk t).view.emb (ix2 k q)) = _
  refine congrArg (V c main_arg3 : S256x64.Idx → EReal) (funext fun a => Fin.ext ?_)
  match a with
  | ⟨0, _⟩ => show win0_2.index t (0 : Fin 2) * 256 + 1 * k.val = k.val; omega
  | ⟨1, _⟩ => show win0_2.index t (1 : Fin 2) * 64 + 1 * q.val = q.val; omega

/-! ## What a grid point writes back -/

/-- Point `t` writes back rows `5000 t` to `5000 t + 4999` of the scaled product of the arrays as the region finds them. -/
theorem flushed_eq (c : Dev nD) (t : Fin cfg0.N) :
    (dat0 (F := Ideal) V c).flushed 3 t
      = ((cfg0.win 3).blk t).view.read (Elt Ideal)
          (Cert.Gcn.feat (V c main_arg0) (V c main_call0_v13) (V c main_arg3)) := by
  show (cfg0.win 3).cut (grid0.coords t) ((dat0 (F := Ideal) V c).after 3 t) = _
  rw [after0_3]
  unfold out0_3
  rw [View.canon_unit_zero hz]
  simp only [View.ld_unit_zero (S := S5000x256) hz, View.ld_unit_zero (S := S256x64) hz,
    View.ld_unit_zero (S := S5000x1) hz]
  have ht : t.val < 10 := lt_of_lt_of_eq t.isLt N_0
  obtain ⟨-, -, -, -, -, -, e0, e1⟩ := idx_facts t
  funext y
  obtain ⟨p, q, rfl⟩ : ∃ (p : Fin 5000) (q : Fin 64), y = ix2 p q := ⟨y 0, y 1, eq_ix2 y⟩
  show k0_pay1 (F := Ideal) (iblk0 V c 0 t) (iblk0 V c 2 t) (iblk0 V c 1 t) (ix2 p q)
    = Cert.Gcn.feat (V c main_arg0) (V c main_call0_v13) (V c main_arg3) (((cfg0.win 3).blk t).view.emb (ix2 p q))
  have hi0 : ((((cfg0.win 3).blk t).view.emb (ix2 p q) : S50000x64.Idx) 0).val
      = (⟨t.val * 5000 + p.val, by omega⟩ : Fin 50000).val := by
    show win0_3.index t (0 : Fin 2) * 5000 + 1 * p.val = t.val * 5000 + p.val; omega
  have hi1 : ((((cfg0.win 3).blk t).view.emb (ix2 p q) : S50000x64.Idx) 1).val = q.val := by
    show win0_3.index t (1 : Fin 2) * 64 + 1 * q.val = q.val; omega
  refine (pay_apply _ _ _ p q).trans (Eq.trans ?_ (feat_at _ _ _ _ _ q hi0 hi1).symm)
  exact congrArg₂ (fun a b : EReal => a * b)
    (Finset.sum_congr rfl fun k _ => congrArg₂ (fun a b : EReal => a * b)
      (blk0_apply V c t p k _ rfl) (blk2_apply V c t k q))
    (blk1_apply V c t p _ rfl)

/-! ## The ten blocks fill the array -/

/-- An index of the output array is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_call0_v14).slice (win0_3.rect t)).set ↔ _
  rw [View.set_slice_whole, Rect.mem_set_unit]
  exact Iff.rfl

/-- Row `r` of the output is written by point `r / 5000`. -/
theorem cover (i : S50000x64.Idx) :
    ∃ t : Fin cfg0.N, (cfg0.win 3).flush t = true ∧ i ∈ ((cfg0.win 3).blk t).view.set := by
  have hi0 : (i 0).val < 50000 := idx2_lt0 i
  have hi1 : (i 1).val < 64 := idx2_lt1 i
  obtain ⟨t, ht⟩ : ∃ t : Fin cfg0.N, t.val = (i 0).val / 5000 :=
    ⟨⟨(i 0).val / 5000, lt_of_lt_of_eq (show (i 0).val / 5000 < 10 by omega) N_0.symm⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-! ## The array after the region -/

/-- After the ten grid points have written back, the output array holds, at `(p, q)`, the product of row `p` of the
    first operand with column `q` of the third, times entry `(p, 0)` of the second (the column of scales). -/
theorem final (c : Dev nD) :
    ((dat0 (F := Ideal) V c).arrAt 3 cfg0.N : S50000x64.Idx → EReal)
      = Cert.Gcn.feat (V c main_arg0) (V c main_call0_v13) (V c main_arg3) :=
  (dat0 (F := Ideal) V c).arrAt_eq_of_cover 3
    (Cert.Gcn.feat (V c main_arg0) (V c main_call0_v13) (V c main_arg3))
    (fun t _ => flushed_eq V c t) cover

end Cert.KernelIdeal.Region0

end
-- ==== Proof.Region1.lean ====
/-
  What the second pallas_call leaves in its two output arrays: the rectified affine map of its operands, entry by
  entry, and that map thresholded at one half, whatever the region was entered with.
-/
import proofs.«417162_j76201309766159_3_alg».proof.Proof.Gen.KernelIdeal.Frame
import proofs.«417162_j76201309766159_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-! ## The body's two payloads, entry by entry -/

/-- Entry `(p, q)` of the first payload: the product of the two operand blocks there, plus the bias row at column
    `q`, rectified at zero. -/
theorem pay1_apply (x0 x1 : Vec Ideal S5000x128 .f32) (x2 : Vec Ideal S1x128 .f32) (p : Fin 5000) (q : Fin 128) :
    (k1_pay1 (F := Ideal) x0 x1 x2) (ix2 p q)
      = max (x0 (ix2 p q) * x1 (ix2 p q) + x2 (ix2 (0 : Fin 1) q)) (Ideal.ofBits .f32 0x00000000#32) := by
  unfold k1_pay1
  rw [shapeCast_self x0, shapeCast_self x1, shapeCast_self x2]
  exact congrArg (fun z => max (x0 (ix2 p q) * x1 (ix2 p q) + z) (Ideal.ofBits .f32 0x00000000#32))
    (broadcastTo_1b_ab_apply x2 broadcasts_S1x128_S5000x128 p q)

/-- Entry `(p, q)` of the second payload: one where the first payload's entry is at least one half, zero elsewhere. -/
theorem pay2_apply (x0 x1 : Vec Ideal S5000x128 .f32) (x2 : Vec Ideal S1x128 .f32) (p : Fin 5000) (q : Fin 128) :
    (k1_pay2 (F := Ideal) x0 x1 x2) (ix2 p q)
      = Scalar.select (FloatOps.cmpf (F := Ideal) (φ := .f32) .oge ((k1_pay1 (F := Ideal) x0 x1 x2) (ix2 p q))
            (Ideal.ofBits .f32 0x3F000000#32))
          (Ideal.ofBits .f32 0x3F800000#32) (Ideal.ofBits .f32 0x00000000#32) := by
  unfold k1_pay2
  rfl

/-! ## Where each window's block sits at a grid point -/

theorem hz : (![0, 0] : Fin 2 → Nat) = fun _ => 0 := funext fun a => by fin_cases a <;> rfl

/-- The printed index maps, decided over the five grid points: the two operand windows and the two output windows are
    at block row `t`, block column `0`; the bias window stays at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Entry `(p, q)` of the first operand's block at point `t` sits in its array where entry `(p, q)` of the first
    output's block sits in its own: row `5000 · t + p`, column `q`. -/
theorem emb0_eq (t : Fin cfg1.N) (p : Fin 5000) (q : Fin 128) :
    ((cfg1.win 0).blk t).view.emb (ix2 p q) = ((cfg1.win 3).blk t).view.emb (ix2 p q) := by
  obtain ⟨e00, e01, -, -, -, -, e30, e31, -, -⟩ := idx_facts t
  funext a; apply Fin.ext
  match a with
  | ⟨0, _⟩ => show win1_0.index t (0 : Fin 2) * 5000 + 1 * p.val = win1_3.index t (0 : Fin 2) * 5000 + 1 * p.val; omega
  | ⟨1, _⟩ => show win1_0.index t (1 : Fin 2) * 128 + 1 * q.val = win1_3.index t (1 : Fin 2) * 128 + 1 * q.val; omega

/-- The same for the second operand's block. -/
theorem emb1_eq (t : Fin cfg1.N) (p : Fin 5000) (q : Fin 128) :
    ((cfg1.win 1).blk t).view.emb (ix2 p q) = ((cfg1.win 3).blk t).view.emb (ix2 p q) := by
  obtain ⟨-, -, e10, e11, -, -, e30, e31, -, -⟩ := idx_facts t
  funext a; apply Fin.ext
  match a with
  | ⟨0, _⟩ => show win1_1.index t (0 : Fin 2) * 5000 + 1 * p.val = win1_3.index t (0 : Fin 2) * 5000 + 1 * p.val; omega
  | ⟨1, _⟩ => show win1_1.index t (1 : Fin 2) * 128 + 1 * q.val = win1_3.index t (1 : Fin 2) * 128 + 1 * q.val; omega

/-- The bias window's block is the whole one-row array at every point: its entry `(0, q)` is the array's entry at row
    `0` and the column of the output entry `(p, q)`. -/
theorem emb2_eq (t : Fin cfg1.N) (p : Fin 5000) (q : Fin 128) :
    ((cfg1.win 2).blk t).view.emb (ix2 (0 : Fin 1) q)
      = ix2 (0 : Fin 1) (Cert.Gcn.colOf (((cfg1.win 3).blk t).view.emb (ix2 p q))) := by
  obtain ⟨-, -, -, -, e20, e21, e30, e31, -, -⟩ := idx_facts t
  funext a; apply Fin.ext
  match a with
  | ⟨0, _⟩ => show win1_2.index t (0 : Fin 2) * 1 + 1 * 0 = 0; omega
  | ⟨1, _⟩ => show win1_2.index t (1 : Fin 2) * 128 + 1 * q.val = win1_3.index t (1 : Fin 2) * 128 + 1 * q.val; omega

/-- The two output windows' blocks sit at the same place in their arrays. -/
theorem emb4_eq (t : Fin cfg1.N) (p : Fin 5000) (q : Fin 128) :
    ((cfg1.win 4).blk t).view.emb (ix2 p q) = ((cfg1.win 3).blk t).view.emb (ix2 p q) := by
  obtain ⟨-, -, -, -, -, -, e30, e31, e40, e41⟩ := idx_facts t
  funext a; apply Fin.ext
  match a with
  | ⟨0, _⟩ => show win1_4.index t (0 : Fin 2) * 5000 + 1 * p.val = win1_3.index t (0 : Fin 2) * 5000 + 1 * p.val; omega
  | ⟨1, _⟩ => show win1_4.index t (1 : Fin 2) * 128 + 1 * q.val = win1_3.index t (1 : Fin 2) * 128 + 1 * q.val; omega

/-! ## Which array entries a point's output block covers -/

/-- An entry of the first output array is in point `t`'s block iff each coordinate is in the block's range. -/
theorem mem_blk3 (t : Fin cfg1.N) (i : S25000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_call0_v33_0).slice (win1_3.rect t)).set ↔ _
  rw [View.set_slice_whole, Rect.mem_set_unit]
  exact Iff.rfl

/-- The same for the second output array. -/
theorem mem_blk4 (t : Fin cfg1.N) (i : S25000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_call0_v33_1).slice (win1_4.rect t)).set ↔ _
  rw [View.set_slice_whole, Rect.mem_set_unit]
  exact Iff.rfl

/-- Every entry of the first output array is in the block of the point numbered by its row divided by 5000. -/
theorem cover3 (i : S25000x128.Idx) :
    ∃ t : Fin cfg1.N, (cfg1.win 3).flush t = true ∧ i ∈ ((cfg1.win 3).blk t).view.set := by
  have hi0 : (i 0).val < 25000 := (i 0).isLt
  have hi1 : (i 1).val < 128 := (i 1).isLt
  have hN : grid1.N = 5 := N_1
  obtain ⟨t, ht⟩ : ∃ t : Fin cfg1.N, t.val = (i 0).val / 5000 :=
    ⟨⟨(i 0).val / 5000, by show (i 0).val / 5000 < grid1.N; omega⟩, rfl⟩
  obtain ⟨-, -, -, -, -, -, e30, e31, -, -⟩ := idx_facts t
  refine ⟨t, flush1_3 t, ?_⟩
  rw [mem_blk3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- And every entry of the second output array likewise. -/
theorem cover4 (i : S25000x128.Idx) :
    ∃ t : Fin cfg1.N, (cfg1.win 4).flush t = true ∧ i ∈ ((cfg1.win 4).blk t).view.set := by
  have hi0 : (i 0).val < 25000 := (i 0).isLt
  have hi1 : (i 1).val < 128 := (i 1).isLt
  have hN : grid1.N = 5 := N_1
  obtain ⟨t, ht⟩ : ∃ t : Fin cfg1.N, t.val = (i 0).val / 5000 :=
    ⟨⟨(i 0).val / 5000, by show (i 0).val / 5000 < grid1.N; omega⟩, rfl⟩
  obtain ⟨-, -, -, -, -, -, -, -, e40, e41⟩ := idx_facts t
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-! ## What each point writes back, and the two arrays after the run -/

-- the buffer contents the region is entered with, on every core
variable (V : (c : Dev nD) → (b : Ref sig .tc) → Buf (Elt Ideal) ((c : Thread nD τ).loc b))

/-- The first payload of the operand blocks at point `t`, at entry `(p, q)`, is the rectified affine map of the operand
    arrays at the place that entry has in the output array. -/
theorem pay1_blk (c : Dev nD) (t : Fin cfg1.N) (p : Fin 5000) (q : Fin 128) :
    (k1_pay1 (F := Ideal) (iblk1 V c 0 t) (iblk1 V c 1 t) (iblk1 V c 2 t)) (ix2 p q)
      = Cert.Gcn.post (V c main_call0_v26) (V c main_call0_v30) (V c main_call0_v32)
          (((cfg1.win 3).blk t).view.emb (ix2 p q)) := by
  refine (pay1_apply (iblk1 V c 0 t) (iblk1 V c 1 t) (iblk1 V c 2 t) p q).trans ?_
  -- each operand block's entry is its array's entry at the place the output entry has
  have h0 : @Eq EReal (iblk1 V c 0 t (ix2 p q))
      (V c main_call0_v26 (((cfg1.win 3).blk t).view.emb (ix2 p q))) :=
    congrArg (V c main_call0_v26) (emb0_eq t p q)
  have h1 : @Eq EReal (iblk1 V c 1 t (ix2 p q))
      (V c main_call0_v30 (((cfg1.win 3).blk t).view.emb (ix2 p q))) :=
    congrArg (V c main_call0_v30) (emb1_eq t p q)
  have h2 : @Eq EReal (iblk1 V c 2 t (ix2 (0 : Fin 1) q))
      (V c main_call0_v32 (ix2 (0 : Fin 1) (Cert.Gcn.colOf (((cfg1.win 3).blk t).view.emb (ix2 p q))))) :=
    congrArg (V c main_call0_v32) (emb2_eq t p q)
  exact congrArg₂ (fun u v : EReal => max (u + v) (Ideal.ofBits .f32 0x00000000#32))
    (congrArg₂ (fun u v : EReal => u * v) h0 h1) h2

/-- What point `t` writes back to the first output array is block `t` of the rectified affine map. -/
theorem flushed3_eq (c : Dev nD) (t : Fin cfg1.N) :
    (dat1 (F := Ideal) V c).flushed 3 t
      = ((cfg1.win 3).blk t).view.read (Elt Ideal)
          (Cert.Gcn.post (V c main_call0_v26) (V c main_call0_v30) (V c main_call0_v32)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  funext y
  obtain ⟨p, q, rfl⟩ : ∃ (p : Fin 5000) (q : Fin 128), y = ix2 p q := ⟨y 0, y 1, eq_ix2 y⟩
  exact pay1_blk V c t p q

/-- What point `t` writes back to the second output array is block `t` of the thresholded map. -/
theorem flushed4_eq (c : Dev nD) (t : Fin cfg1.N) :
    (dat1 (F := Ideal) V c).flushed 4 t
      = ((cfg1.win 4).blk t).view.read (Elt Ideal)
          (Cert.Gcn.thr (Cert.Gcn.post (V c main_call0_v26) (V c main_call0_v30) (V c main_call0_v32))) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  funext y
  obtain ⟨p, q, rfl⟩ : ∃ (p : Fin 5000) (q : Fin 128), y = ix2 p q := ⟨y 0, y 1, eq_ix2 y⟩
  refine (pay2_apply (iblk1 V c 0 t) (iblk1 V c 1 t) (iblk1 V c 2 t) p q).trans ?_
  have hb : (k1_pay1 (F := Ideal) (iblk1 V c 0 t) (iblk1 V c 1 t) (iblk1 V c 2 t)) (ix2 p q)
      = Cert.Gcn.post (V c main_call0_v26) (V c main_call0_v30) (V c main_call0_v32)
          (((cfg1.win 4).blk t).view.emb (ix2 p q)) :=
    (pay1_blk V c t p q).trans
      (congrArg (Cert.Gcn.post (V c main_call0_v26) (V c main_call0_v30) (V c main_call0_v32)) (emb4_eq t p q).symm)
  rw [hb]
  rfl

/-- After the five grid points have written back, the first output array holds `max (a · n + b) 0` entry by entry. -/
theorem final_h (c : Dev nD) :
    ((dat1 (F := Ideal) V c).arrAt 3 cfg1.N : S25000x128.Idx → EReal)
      = Cert.Gcn.post (V c main_call0_v26) (V c main_call0_v30) (V c main_call0_v32) :=
  (dat1 (F := Ideal) V c).arrAt_eq_of_cover 3
    (Cert.Gcn.post (V c main_call0_v26) (V c main_call0_v30) (V c main_call0_v32))
    (fun t _ => flushed3_eq V c t) cover3

/-- And the second output array holds that map thresholded at one half. -/
theorem final_c (c : Dev nD) :
    ((dat1 (F := Ideal) V c).arrAt 4 cfg1.N : S25000x128.Idx → EReal)
      = Cert.Gcn.thr (Cert.Gcn.post (V c main_call0_v26) (V c main_call0_v30) (V c main_call0_v32)) :=
  (dat1 (F := Ideal) V c).arrAt_eq_of_cover 4
    (Cert.Gcn.thr (Cert.Gcn.post (V c main_call0_v26) (V c main_call0_v30) (V c main_call0_v32)))
    (fun t _ => flushed4_eq V c t) cover4

end Cert.KernelIdeal.Region1

end
-- ==== Proof.HostK.lean ====
/-
  The kernel program's host operations, read: what each pallas_call is entered with and what the program returns,
  as terms of the launch contents.

  Between the launch and the first pallas_call the program computes the two degree normalisers; between the two
  pallas_calls it gathers the node features along the edges, sums them per destination node and lays the three
  operands of the second call out in pairs of node rows; after it, it reshapes the two results back.
-/
import proofs.«417162_j76201309766159_3_alg».proof.Proof.Gen.KernelIdeal.Frame
import proofs.«417162_j76201309766159_3_alg».proof.Proof.Spec
import proofs.«417162_j76201309766159_3_alg».proof.Proof.Region0
import proofs.«417162_j76201309766159_3_alg».proof.Proof.Region1
import Idealize.ShloMosaic.Lib.StableHlo.Run
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.ValueIdx

variable (m : (ℓ : Loc nD τ sig) → Buf (Elt Ideal) ℓ) (ρ : Dev nD → PrngReg)

/-- The degree normaliser of an index list: `(max 1 (number of edges at the node)) ^ (-1/2)`, node by node. -/
def norm (idx : IVec S1600000 32) : FVec Ideal S50000 .f32 :=
  Host.powf
    (maximumf (broadcastInDim S50000 ![] bcast_S_S50000 (id (constant S_ .f32 0x3F800000#32)))
      (Host.scatterAdd scatter_S50000_S1600000x1_S1600000_n_0_0_1
        (broadcastInDim S50000 ![] bcast_S_S50000 (constant S_ .f32 0x00000000#32))
        (broadcastInDim S1600000x1 ![0] bcast_S1600000_S1600000x1_0 idx)
        (broadcastInDim S1600000 ![] bcast_S_S1600000 (constant S_ .f32 0x3F800000#32))))
    (broadcastInDim S50000 ![] bcast_S_S50000 (constant S_ .f32 0xBF000000#32))

/-- Edge messages gathered at the (wrapped) source nodes and summed per destination node. -/
def agg (dst src : IVec S1600000 32) (f : FVec Ideal S50000x64 .f32) : FVec Ideal S50000x64 .f32 :=
  Host.scatterAdd scatter_S50000x64_S1600000x1_S1600000x64_1_0_0_1
    (broadcastInDim S50000x64 ![] bcast_S_S50000x64 (constant S_ .f32 0x00000000#32))
    (broadcastInDim S1600000x1 ![0] bcast_S1600000_S1600000x1_0 dst)
    (Host.gather gather_S50000x64_S1600000x1_S1600000x64_1_0_n_n_0_1_164 f
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

/-! ## The first stretch of host operations: the two normalisers -/

/-- The out-degree normaliser, as a column: what the first pallas_call's second window stages. -/
theorem W1_v13 (c : Dev nD) : W1 m ρ c (Proc.devRef .tc main_call0_v13)
    = shapeCast S50000x1 (norm (m ((c.tc : Thread nD τ).loc main_arg1))) shapeCasts_S50000_S50000x1 := by
  have hW : W0 m ρ c (Proc.devRef .tc main_arg1) = m ((c.tc : Thread nD τ).loc main_arg1) := rfl
  show StableHlo.after hostOps0 (W0 m ρ c) (Proc.devRef .tc main_call0_v13) = _
  unfold norm
  after_results_simp
  dsimp only [TRef.toBuf, TRef.ofBuf]
  simp only [cast_cast, hW]
  repeat rw [cast_eq]
  rfl

/-- The in-degree normaliser. -/
theorem W1_v12 (c : Dev nD) : W1 m ρ c (Proc.devRef .tc main_call0_v12)
    = norm (m ((c.tc : Thread nD τ).loc main_arg2)) := by
  have hW : W0 m ρ c (Proc.devRef .tc main_arg2) = m ((c.tc : Thread nD τ).loc main_arg2) := rfl
  show StableHlo.after hostOps0 (W0 m ρ c) (Proc.devRef .tc main_call0_v12) = _
  unfold norm
  after_results_simp
  dsimp only [TRef.toBuf, TRef.ofBuf]
  simp only [cast_cast, hW]
  repeat rw [cast_eq]

/-- The launch arguments pass through the first stretch. -/
theorem W1_arg0 (c : Dev nD) : W1 m ρ c (Proc.devRef .tc main_arg0) = m ((c.tc : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c.tc : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c.tc : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c.tc : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c.tc : Thread nD τ).loc main_arg4) := by
  show StableHlo.after hostOps0 (W0 m ρ c) (Proc.devRef .tc main_arg4) = _
  after_results_simp <;> rfl

/-! ## The first pallas_call: the node features -/

/-- Buffers the first pallas_call does not write keep their contents. -/
theorem W2_arg1 (c : Dev nD) : W2 m ρ c (Proc.devRef .tc main_arg1) = m ((c.tc : Thread nD τ).loc main_arg1) :=
  (W2_of_ne m ρ c main_arg1 (by decide)).trans (W1_arg1 m ρ c)
theorem W2_arg2 (c : Dev nD) : W2 m ρ c (Proc.devRef .tc main_arg2) = m ((c.tc : Thread nD τ).loc main_arg2) :=
  (W2_of_ne m ρ c main_arg2 (by decide)).trans (W1_arg2 m ρ c)
theorem W2_arg4 (c : Dev nD) : W2 m ρ c (Proc.devRef .tc main_arg4) = m ((c.tc : Thread nD τ).loc main_arg4) :=
  (W2_of_ne m ρ c main_arg4 (by decide)).trans (W1_arg4 m ρ c)
theorem W2_v12 (c : Dev nD) : W2 m ρ c (Proc.devRef .tc main_call0_v12) = norm (m ((c.tc : Thread nD τ).loc main_arg2)) :=
  (W2_of_ne m ρ c main_call0_v12 (by decide)).trans (W1_v12 m ρ c)

/-- The first pallas_call's output array: the scaled product of the features with the weights. -/
theorem W2_v14 (c : Dev nD) : (W2 m ρ c (Proc.devRef .tc main_call0_v14) : S50000x64.Idx → EReal)
    = Cert.Gcn.feat (m ((c.tc : Thread nD τ).loc main_arg0))
        (shapeCast S50000x1 (norm (m ((c.tc : Thread nD τ).loc main_arg1))) shapeCasts_S50000_S50000x1)
        (m ((c.tc : Thread nD τ).loc main_arg3)) := by
  refine (W2_arr m ρ c 3).trans ?_
  refine (Cert.KernelIdeal.Region0.final (V1 m ρ) c).trans ?_
  show Cert.Gcn.feat (W1 m ρ c (Proc.devRef .tc main_arg0)) (W1 m ρ c (Proc.devRef .tc main_call0_v13))
    (W1 m ρ c (Proc.devRef .tc main_arg3)) = _
  rw [W1_arg0, W1_v13, W1_arg3]

/-! ## The second stretch: the edge aggregation and the paired layout -/

/-- The aggregation as the kernel program spells it: the gathered half-precision features widened before the sum. -/
def aggK (dst src : IVec S1600000 32) (f : FVec Ideal S50000x64 .bf16) : FVec Ideal S50000x64 .f32 :=
  Host.scatterAdd scatter_S50000x64_S1600000x1_S1600000x64_1_0_0_1
    (broadcastInDim S50000x64 ![] bcast_S_S50000x64 (constant S_ .f32 0x00000000#32))
    (broadcastInDim S1600000x1 ![0] bcast_S1600000_S1600000x1_0 dst)
    (extf .f32 (Host.gather gather_S50000x64_S1600000x1_S1600000x64_1_0_n_n_0_1_164 f
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src))) bitsLt_bf16_f32)

/-- A change of float format is the identity on the extended reals. -/
theorem extf_id {s : Shape} (G : FVec Ideal s .bf16) (h : FTy.bits .bf16 < FTy.bits .f32) :
    (extf .f32 G h : FVec Ideal s .f32) = G := funext fun i => extf_apply G h i
theorem aggK_eq (dst src : IVec S1600000 32) (f : FVec Ideal S50000x64 .bf16) : aggK dst src f = agg dst src f := by
  unfold aggK agg
  rw [extf_id]

/-- The second pallas_call's first operand: the aggregated features, paired. -/
theorem W3_v26 (c : Dev nD) (f : FVec Ideal S50000x64 .bf16) (hf : W2 m ρ c (Proc.devRef .tc main_call0_v14) = f) :
    W3 m ρ c (Proc.devRef .tc main_call0_v26)
      = shapeCast S25000x128 (aggK (m ((c.tc : Thread nD τ).loc main_arg2)) (m ((c.tc : Thread nD τ).loc main_arg1)) f)
          shapeCasts_S50000x64_S25000x128 := by
  have h1 := W2_arg1 m ρ c
  have h2 := W2_arg2 m ρ c
  show StableHlo.after hostOps1 (W2 m ρ c) (Proc.devRef .tc main_call0_v26) = _
  unfold aggK
  after_results_simp
  dsimp only [TRef.toBuf, TRef.ofBuf]
  simp only [cast_cast, h1, h2, hf]
  repeat rw [cast_eq]
  rfl

/-- Its second operand: the in-degree normaliser, each node's value across its 64 lanes, paired. -/
theorem W3_v30 (c : Dev nD) (n : FVec Ideal S50000 .f32) (hn : W2 m ρ c (Proc.devRef .tc main_call0_v12) = n) :
    W3 m ρ c (Proc.devRef .tc main_call0_v30)
      = shapeCast S25000x128 (broadcastInDim S25000x2x64 ![0, 1, 2] bcast_S25000x2x1_S25000x2x64_0_1_2
          (broadcastInDim S25000x2x1 ![0, 1] bcast_S25000x2_S25000x2x1_0_1 (shapeCast S25000x2 n shapeCasts_S50000_S25000x2)))
          shapeCasts_S25000x2x64_S25000x128 := by
  show StableHlo.after hostOps1 (W2 m ρ c) (Proc.devRef .tc main_call0_v30) = _
  after_results_simp
  dsimp only [TRef.toBuf, TRef.ofBuf]
  simp only [cast_cast, hn]
  repeat rw [cast_eq]
  rfl

/-- Its third operand: the bias twice over, as one row. -/
theorem W3_v32 (c : Dev nD) :
    W3 m ρ c (Proc.devRef .tc main_call0_v32)
      = shapeCast S1x128 (concatenate S128 0 [⟨S64, m ((c.tc : Thread nD τ).loc main_arg4)⟩, ⟨S64, m ((c.tc : Thread nD τ).loc main_arg4)⟩]
          concatenates_S64_S64_S128_d0) shapeCasts_S128_S1x128 := by
  have h4 := W2_arg4 m ρ c
  show StableHlo.after hostOps1 (W2 m ρ c) (Proc.devRef .tc main_call0_v32) = _
  after_results
  dsimp only [TRef.toBuf, TRef.ofBuf]
  repeat rw [cast_eq]
  rw [h4]
  rfl

/-! ## The second pallas_call and the last stretch: the two results -/

/-- The second pallas_call's first output array: the rectified affine map of its three operands. -/
theorem W4_v33_0 (c : Dev nD) : (W4 m ρ c (Proc.devRef .tc main_call0_v33_0) : S25000x128.Idx → EReal)
    = Cert.Gcn.post (W3 m ρ c (Proc.devRef .tc main_call0_v26)) (W3 m ρ c (Proc.devRef .tc main_call0_v30))
        (W3 m ρ c (Proc.devRef .tc main_call0_v32)) :=
  (W4_arr m ρ c 3).trans (Cert.KernelIdeal.Region1.final_h (V3 m ρ) c)

/-- Its second output array: that map thresholded at one half. -/
theorem W4_v33_1 (c : Dev nD) : (W4 m ρ c (Proc.devRef .tc main_call0_v33_1) : S25000x128.Idx → EReal)
    = Cert.Gcn.thr (Cert.Gcn.post (W3 m ρ c (Proc.devRef .tc main_call0_v26)) (W3 m ρ c (Proc.devRef .tc main_call0_v30))
        (W3 m ρ c (Proc.devRef .tc main_call0_v32))) :=
  (W4_arr m ρ c 4).trans (Cert.KernelIdeal.Region1.final_c (V3 m ρ) c)

/-- The program's results are the second pallas_call's outputs reshaped to the node layout. -/
theorem W5_v0_0 (c : Dev nD) : W5 m ρ c (Proc.devRef .tc main_v0_0)
    = shapeCast S50000x64 (W4 m ρ c (Proc.devRef .tc main_call0_v33_0)) shapeCasts_S25000x128_S50000x64 := by
  show StableHlo.after hostOps2 (W4 m ρ c) (Proc.devRef .tc main_v0_0) = _
  after_results_simp
  rfl
theorem W5_v0_1 (c : Dev nD) : W5 m ρ c (Proc.devRef .tc main_v0_1)
    = shapeCast S50000x64 (W4 m ρ c (Proc.devRef .tc main_call0_v33_1)) shapeCasts_S25000x128_S50000x64 := by
  show StableHlo.after hostOps2 (W4 m ρ c) (Proc.devRef .tc main_v0_1) = _
  after_results_simp
  rfl

end Cert.KernelIdeal.KValue

end
-- ==== Proof.LibPadRead.lean ====
/-
  A host `pad` at the high end of the leading axis, and reshapes between a matrix and its flat row-major vector, read
  at an index written by coordinates.

  `pad_high_ix1` / `pad_high_rows_ix2`: a vector (a matrix) padded behind its last entry (its last row) only, with no low
  or interior padding, reads the operand where the leading coordinate is inside it and the padding value past it.
  `shapeCast_ab_flat_apply` / `shapeCast_abc_ab_apply`: a matrix flattened reads, at position `i b + j`, the matrix at
  `(i, j)`; a rank-3 array with its two trailing axes merged reads, at `(k, i c + j)`, the array at `(k, i, j)`.
  `broadcastInDim_rows_ix2`: a vector copied along a new trailing axis reads the vector at the row.
-/
import Idealize.ShloMosaic.Lib.KernelVsHost
import Idealize.ShloMosaic.Lib.Pipeline.Value
import Idealize.ShloMosaic.Lib.ValueLayout

noncomputable section

namespace Cert.LibPadRead

open Idealize.ShloMosaic Idealize.ShloMosaic.ValueIdx

variable {α : Type}

/-- A vector padded behind its last entry reads, at `j`, the vector when `j` is inside it and the padding value past it. -/
theorem pad_high_ix1 {n n' : ℕ} (hi : Fin 1 → ℕ) (x : (⟨1, ![n]⟩ : Shape).Idx → α) {u : Shape} (v : u.Idx → α)
    (h : (⟨1, ![n]⟩ : Shape).Pads ![0] hi ![0] ⟨1, ![n']⟩) (hu : 0 < u.numel) (j : Fin n') :
    pad ⟨1, ![n']⟩ ![0] hi ![0] x v h hu (ix1 j)
      = if hj : j.val < n then x (ix1 ⟨j.val, hj⟩) else v (Shape.Idx.first hu) := by
  split
  · next hj =>
    exact pad_apply_of_inside _ _ _ x v h hu _ (ix1 ⟨j.val, hj⟩) (fun a => match a with | ⟨0, _⟩ => by simp)
  · next hj =>
    exact pad_apply_of_not_inside _ _ _ x v h hu _ (0 : Fin 1) (fun hin => hj (by simpa using hin.2.2))

/-- A matrix padded behind its last row reads, at `(i, j)`, the matrix when row `i` is inside it and the padding value
    past it. -/
theorem pad_high_rows_ix2 {n n' c : ℕ} (hi : Fin 2 → ℕ) (x : (⟨2, ![n, c]⟩ : Shape).Idx → α) {u : Shape} (v : u.Idx → α)
    (h : (⟨2, ![n, c]⟩ : Shape).Pads ![0, 0] hi ![0, 0] ⟨2, ![n', c]⟩) (hu : 0 < u.numel) (i : Fin n') (j : Fin c) :
    pad ⟨2, ![n', c]⟩ ![0, 0] hi ![0, 0] x v h hu (ix2 i j)
      = if hi' : i.val < n then x (ix2 ⟨i.val, hi'⟩ j) else v (Shape.Idx.first hu) := by
  split
  · next hi' =>
    exact pad_apply_of_inside _ _ _ x v h hu _ (ix2 ⟨i.val, hi'⟩ j)
      (fun a => match a with | ⟨0, _⟩ => by simp | ⟨1, _⟩ => by simp)
  · next hi' =>
    exact pad_apply_of_not_inside _ _ _ x v h hu _ (0 : Fin 2) (fun hin => hi' (by simpa using hin.2.2))

/-- A matrix flattened row-major reads, at position `i b + j`, the matrix at `(i, j)`. -/
theorem shapeCast_ab_flat_apply {a b N : ℕ} (x : (⟨2, ![a, b]⟩ : Shape).Idx → α)
    (h : (⟨2, ![a, b]⟩ : Shape).ShapeCasts ⟨1, ![N]⟩) (i : Fin a) (j : Fin b) (k : Fin N) (hk : k.val = i.val * b + j.val) :
    shapeCast ⟨1, ![N]⟩ x h (ix1 k) = x (ix2 i j) :=
  shapeCast_apply x h _ _ (by
    rw [Shape.rowMajor_val_two, Shape.rowMajor_val_one]
    show i.val * b + j.val = k.val
    exact hk.symm)

/-- A rank-3 array with its two trailing axes merged reads, at `(k, i c + j)`, the array at `(k, i, j)`. -/
theorem shapeCast_abc_ab_apply {a b c M : ℕ} (x : (⟨3, ![a, b, c]⟩ : Shape).Idx → α)
    (h : (⟨3, ![a, b, c]⟩ : Shape).ShapeCasts ⟨2, ![a, M]⟩) (hM : M = b * c) (k : Fin a) (i : Fin b) (j : Fin c) (l : Fin M)
    (hl : l.val = i.val * c + j.val) :
    shapeCast ⟨2, ![a, M]⟩ x h (ix2 k l) = x (ix3 k i j) :=
  shapeCast_apply x h _ _ (by
    rw [Shape.rowMajor_val_three, Shape.rowMajor_val_two]
    show (k.val * b + i.val) * c + j.val = k.val * M + l.val
    rw [hl, hM, Nat.add_mul, Nat.mul_assoc, Nat.add_assoc])

/-- A vector copied along a new trailing axis reads, at `(i, j)`, the vector at `i`. -/
theorem broadcastInDim_rows_ix2 {a b : ℕ} (ha : a ≠ 1) (x : (⟨1, ![a]⟩ : Shape).Idx → α)
    (h : (⟨1, ![a]⟩ : Shape).BroadcastsInDim ⟨2, ![a, b]⟩ ![0]) (i : Fin a) (j : Fin b) :
    broadcastInDim ⟨2, ![a, b]⟩ ![0] h x (ix2 i j) = x (ix1 i) :=
  broadcastInDim_apply _ h x _ _ (fun c => match c with
    | ⟨0, _⟩ => by
      show i.val = if a = 1 then 0 else i.val
      rw [if_neg ha])

end Cert.LibPadRead

end
-- ==== Proof.Layout.lean ====
/-
  The paired layout. The second pallas_call works on `[25000, 128]` arrays: row `r` holds node rows `2r` and `2r + 1`
  side by side, lanes `0 … 63` the first and `64 … 127` the second. In row-major order entry `(p, q)` of a `[50000, 64]`
  array and entry `(p / 2, (p % 2) · 64 + q)` of its `[25000, 128]` reshape are the same position `64 p + q`. The
  per-node normaliser is paired the same way (`[50000] → [25000, 2] → [25000, 2, 1] → [25000, 2, 64] → [25000, 128]`)
  and the bias row is the bias twice over (`[64] ++ [64] → [1, 128]`). So the rectified affine map computed in the
  paired layout and reshaped back is the layer's output in the node layout.
-/
import proofs.«417162_j76201309766159_3_alg».proof.Proof.Spec
import proofs.«417162_j76201309766159_3_alg».proof.Proof.LibPadRead
import Idealize.ShloMosaic.Lib.Pipeline.Value
import Idealize.ShloMosaic.Lib.ValueIdx

noncomputable section

namespace Cert.Gcn

open Idealize.ShloMosaic Idealize.ShloMosaic.ValueIdx

abbrev A50000x64 : Shape := ⟨2, ![50000, 64]⟩
abbrev A25000x128 : Shape := ⟨2, ![25000, 128]⟩
abbrev A50000 : Shape := ⟨1, ![50000]⟩
abbrev A25000x2 : Shape := ⟨2, ![25000, 2]⟩
abbrev A25000x2x1 : Shape := ⟨3, ![25000, 2, 1]⟩
abbrev A25000x2x64 : Shape := ⟨3, ![25000, 2, 64]⟩
abbrev A64 : Shape := ⟨1, ![64]⟩
abbrev A128 : Shape := ⟨1, ![128]⟩
abbrev A1x128 : Shape := ⟨2, ![1, 128]⟩

variable (A : A50000x64.Idx → EReal) (N : A50000.Idx → EReal) (B : A64.Idx → EReal)
variable (h1 : A50000x64.ShapeCasts A25000x128) (h2 : A50000.ShapeCasts A25000x2)
  (h3 : A25000x2.BroadcastsInDim A25000x2x1 (![0, 1] : Fin 2 → Fin A25000x2x1.rank))
  (h4 : A25000x2x1.BroadcastsInDim A25000x2x64 (![0, 1, 2] : Fin 3 → Fin A25000x2x64.rank))
  (h5 : A25000x2x64.ShapeCasts A25000x128) (h6 : Shape.Concatenates [A64, A64] A128 0) (h7 : A128.ShapeCasts A1x128)
  (h8 : A25000x128.ShapeCasts A50000x64)

/-- The aggregated features in the paired layout. -/
abbrev aggPaired : A25000x128.Idx → EReal := shapeCast A25000x128 A h1
/-- The normaliser in the paired layout: each node's value across its 64 lanes. -/
abbrev ndPaired : A25000x128.Idx → EReal :=
  shapeCast A25000x128 (broadcastInDim A25000x2x64 ![0, 1, 2] h4 (broadcastInDim A25000x2x1 ![0, 1] h3 (shapeCast A25000x2 N h2))) h5
/-- The bias row of the paired layout: the bias twice. -/
abbrev biasPaired : A1x128.Idx → EReal :=
  shapeCast A1x128 (concatenate A128 0 [⟨A64, B⟩, ⟨A64, B⟩] h6) h7

section reads
variable (p : Fin 50000) (q : Fin 64) (r : Fin 25000) (e : Fin 2) (l : Fin 128)
  (hp : p.val = 2 * r.val + e.val) (hl : l.val = e.val * 64 + q.val)
include hp hl

theorem aggPaired_apply : aggPaired A h1 (ix2 r l) = A (ix2 p q) :=
  shapeCast_apply A h1 (ix2 r l) (ix2 p q) (by
    rw [Shape.rowMajor_val_two, Shape.rowMajor_val_two]
    show p.val * 64 + q.val = r.val * 128 + l.val
    have := e.isLt; omega)

theorem ndPaired_apply : ndPaired N h2 h3 h4 h5 (ix2 r l) = N (ix1 p) := by
  refine (Cert.LibPadRead.shapeCast_abc_ab_apply _ h5 (by norm_num) r e q l hl).trans ?_
  refine (broadcastInDim_apply _ h4 _ (ix3 r e q) (ix3 r e (0 : Fin 1)) (fun a => ?_)).trans ?_
  · match a with
    | ⟨0, _⟩ => rfl
    | ⟨1, _⟩ => rfl
    | ⟨2, _⟩ => rfl
  refine (broadcastInDim_apply _ h3 _ (ix3 r e (0 : Fin 1)) (ix2 r e) (fun a => ?_)).trans ?_
  · match a with
    | ⟨0, _⟩ => rfl
    | ⟨1, _⟩ => rfl
  exact shapeCast_apply N h2 (ix2 r e) (ix1 p) (by
    rw [Shape.rowMajor_val_one, Shape.rowMajor_val_two]
    show p.val = r.val * 2 + e.val
    omega)

theorem biasPaired_apply : biasPaired B h6 h7 (ix2 (0 : Fin 1) l) = B (ix1 q) := by
  refine (shapeCast_apply _ h7 (ix2 (0 : Fin 1) l) (ix1 l) (by
    rw [Shape.rowMajor_val_one, Shape.rowMajor_val_two]
    show l.val = 0 * 128 + l.val
    omega)).trans ?_
  have he := e.isLt
  by_cases h0 : e.val = 0
  · exact concatenate_pair_apply_left (0 : Fin 1) B B h6 (ix1 l) rfl (ix1 q) (fun b => by
      match b with
      | ⟨0, _⟩ => show q.val = l.val; omega)
  · exact concatenate_pair_apply_right (0 : Fin 1) B B h6 (ix1 l) rfl rfl (ix1 q)
      (fun b hb => absurd (Subsingleton.elim _ _) hb)
      (by show q.val + 64 = l.val; omega)

end reads

/-- The rectified affine map of the paired layout, reshaped back, is the layer's output. -/
theorem out_of_paired :
    shapeCast A50000x64 (post (aggPaired A h1) (ndPaired N h2 h3 h4 h5) (biasPaired B h6 h7)) h8 = out A N B := by
  funext i
  obtain ⟨p, q, rfl⟩ : ∃ (p : Fin 50000) (q : Fin 64), i = ix2 p q := ⟨i 0, i 1, eq_ix2 i⟩
  have hpq := p.isLt
  have hq := q.isLt
  let r : Fin 25000 := ⟨p.val / 2, by omega⟩
  let e : Fin 2 := ⟨p.val % 2, by omega⟩
  let l : Fin 128 := ⟨(p.val % 2) * 64 + q.val, by omega⟩
  have hp : p.val = 2 * r.val + e.val := by show p.val = 2 * (p.val / 2) + p.val % 2; omega
  have hl : l.val = e.val * 64 + q.val := rfl
  refine (shapeCast_apply _ h8 (ix2 p q) (ix2 r l) (by
    rw [Shape.rowMajor_val_two, Shape.rowMajor_val_two]
    show r.val * 128 + l.val = p.val * 64 + q.val
    omega)).trans ?_
  show max (aggPaired A h1 (ix2 r l) * ndPaired N h2 h3 h4 h5 (ix2 r l) + biasPaired B h6 h7 (ix2 (0 : Fin 1) l)) _
    = max (A (ix2 p q) * N (ix1 p) + B (ix1 q)) _
  rw [aggPaired_apply A h1 p q r e l hp hl, ndPaired_apply N h2 h3 h4 h5 p q r e l hp hl,
    biasPaired_apply B h6 h7 p q r e l hp hl]

/-- Thresholding commutes with the reshape: it acts entry by entry. -/
theorem thr_of_paired (H : A25000x128.Idx → EReal) :
    shapeCast A50000x64 (thr H) h8 = thr (shapeCast A50000x64 H h8) := rfl

end Cert.Gcn

end
-- ==== Proof.KOut.lean ====
/-
  The kernel program's two results as functions of the launch contents: the layer's output `Cert.Gcn.out` of the
  aggregated features, the in-degree normaliser and the bias, and its thresholded copy. The second pallas_call
  computes in the paired layout; reshaped back, that is the output in the node layout.
-/
import proofs.«417162_j76201309766159_3_alg».proof.Proof.HostK
import proofs.«417162_j76201309766159_3_alg».proof.Proof.Layout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The node features the first pallas_call computes, of the launch contents. -/
abbrev featOf (c : Dev nD) : S50000x64.Idx → EReal :=
  Cert.Gcn.feat (m ((c.tc : Thread nD τ).loc main_arg0))
    (shapeCast S50000x1 (norm (m ((c.tc : Thread nD τ).loc main_arg1))) shapeCasts_S50000_S50000x1)
    (m ((c.tc : Thread nD τ).loc main_arg3))

/-- The layer's output, of the launch contents. -/
def outH (c : Dev nD) : S50000x64.Idx → EReal :=
  Cert.Gcn.out (agg (m ((c.tc : Thread nD τ).loc main_arg2)) (m ((c.tc : Thread nD τ).loc main_arg1)) (featOf m c))
    (norm (m ((c.tc : Thread nD τ).loc main_arg2))) (m ((c.tc : Thread nD τ).loc main_arg4))

/-- The program's first result is the layer's output. -/
theorem res_h (c : Dev nD) : (W5 m ρ c (Proc.devRef .tc main_v0_0) : S50000x64.Idx → EReal) = outH m c := by
  have e26 := W3_v26 m ρ c _ (W2_v14 m ρ c)
  have e30 := W3_v30 m ρ c _ (W2_v12 m ρ c)
  have e32 := W3_v32 m ρ c
  refine (W5_v0_0 m ρ c).trans ?_
  rw [W4_v33_0 m ρ c, e26, e30, e32, aggK_eq]
  exact Cert.Gcn.out_of_paired _ _ _ _ _ _ _ _ _ _ _

/-- The program's second result is the layer's output thresholded at one half. -/
theorem res_c (c : Dev nD) : (W5 m ρ c (Proc.devRef .tc main_v0_1) : S50000x64.Idx → EReal) = Cert.Gcn.thr (outH m c) := by
  have e26 := W3_v26 m ρ c _ (W2_v14 m ρ c)
  have e30 := W3_v30 m ρ c _ (W2_v12 m ρ c)
  have e32 := W3_v32 m ρ c
  refine (W5_v0_1 m ρ c).trans ?_
  rw [W4_v33_1 m ρ c, e26, e30, e32, aggK_eq]
  refine (Cert.Gcn.thr_of_paired _ _).trans ?_
  exact congrArg Cert.Gcn.thr (Cert.Gcn.out_of_paired _ _ _ _ _ _ _ _ _ _ _)

end Cert.KernelIdeal.KValue

end
-- ==== Proof.RefSide.lean ====
/-
  The reference program's results, read: the layer's output as `Cert.Gcn.out` of the aggregated features, the
  in-degree normaliser and the bias, and its thresholded copy.

  The reference scales the input rows by the out-degree normaliser BEFORE the product with the weight matrix, so its
  feature entry `(p, q)` is `∑ k, (x (p, k) · norm src p) · w (k, q)`.
-/
import proofs.«417162_j76201309766159_3_alg».proof.Proof.Gen.ReferenceIdeal.Run
import proofs.«417162_j76201309766159_3_alg».proof.Proof.Gen.ReferenceIdeal.Read
import proofs.«417162_j76201309766159_3_alg».proof.Proof.Spec
import proofs.«417162_j76201309766159_3_alg».proof.Proof.LibPlainDot
import proofs.«417162_j76201309766159_3_alg».proof.Proof.LibPadRead
import proofs.«417162_j76201309766159_3_alg».proof.Proof.LibRowReduce
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-- The host's power, entry by entry. -/
theorem hostPowf_apply {s : Shape} {φ : FTy} (a b : FVec Ideal s φ) (i : s.Idx) :
    Host.powf a b i = Ideal.pow (a i) (b i) := rfl

section Layout

variable {α : Type}

/-- A rank-0 value copied to every entry reads the value. -/
theorem bcast_scalar_apply {t : Shape} (h : (⟨0, ![]⟩ : Shape).BroadcastsInDim t ![])
    (x : (⟨0, ![]⟩ : Shape).Idx → α) (j : t.Idx) :
    broadcastInDim t ![] h x j = x ix0 :=
  broadcastInDim_apply _ h x j ix0 (fun a => a.elim0)

/-- A column `[a, 1]` copied along the second axis reads, at `(i, j)`, the column at row `i`. -/
theorem bcast_col_ix2 {a b : ℕ} (ha : a ≠ 1) (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => match c with
    | ⟨0, _⟩ => by
      show i.val = if a = 1 then 0 else i.val
      rw [if_neg ha]
    | ⟨1, _⟩ => by
      show (0 : ℕ) = if (1 : ℕ) = 1 then 0 else j.val
      rw [if_pos rfl])

/-- A vector `[b]` given a leading unit axis reads, at `(i, j)`, the vector at `j`. -/
theorem bcast_unit_row_ix2 {b : ℕ} (hb : b ≠ 1) (x : (⟨1, ![b]⟩ : Shape).Idx → α)
    (h : (⟨1, ![b]⟩ : Shape).BroadcastsInDim ⟨2, ![1, b]⟩ ![1]) (i : Fin 1) (j : Fin b) :
    broadcastInDim ⟨2, ![1, b]⟩ ![1] h x (ix2 i j) = x (ix1 j) :=
  broadcastInDim_apply _ h x _ _ (fun c => match c with
    | ⟨0, _⟩ => by
      show j.val = if b = 1 then 0 else j.val
      rw [if_neg hb])

/-- A single row `[1, b]` copied along the first axis reads, at `(i, j)`, the row at column `j`. -/
theorem bcast_row_ix2 {a b : ℕ} (hb : b ≠ 1) (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => match c with
    | ⟨0, _⟩ => by
      show (0 : ℕ) = if (1 : ℕ) = 1 then 0 else i.val
      rw [if_pos rfl]
    | ⟨1, _⟩ => by
      show j.val = if b = 1 then 0 else j.val
      rw [if_neg hb])

end Layout

/-- A matrix index is a pair of a row and a column. -/
theorem exists_ix2 {a b : ℕ} (i : (⟨2, ![a, b]⟩ : Shape).Idx) : ∃ (p : Fin a) (q : Fin b), i = ix2 p q :=
  ⟨Cert.Gcn.rowOf i, Cert.Gcn.colOf i, (Cert.Gcn.ix2_rowOf_colOf i).symm⟩

/-- The rectified affine map of the program, spelt with its four copies along axes, is `Cert.Gcn.out`: entry
    `(p, q)` is `max (A (p, q) · N p + B q) 0`. -/
theorem out_eq (A : FVec Ideal S50000x64 .f32) (N : FVec Ideal S50000 .f32) (B : FVec Ideal S64 .f32) :
    maximumf (addf (mulf A (broadcastInDim S50000x64 ![0, 1] bcast_S50000x1_S50000x64_0_1
          (broadcastInDim S50000x1 ![0] bcast_S50000_S50000x1_0 N)))
        (broadcastInDim S50000x64 ![0, 1] bcast_S1x64_S50000x64_0_1 (broadcastInDim S1x64 ![1] bcast_S64_S1x64_1 B)))
      (broadcastInDim S50000x64 ![] bcast_S_S50000x64 (constant S_ .f32 0x00000000#32))
      = Cert.Gcn.out A N B := by
  funext i
  obtain ⟨p, q, rfl⟩ := exists_ix2 i
  rw [maximumf_apply, addf_apply, mulf_apply, bcast_col_ix2 (by decide),
    Cert.LibPadRead.broadcastInDim_rows_ix2 (by decide), bcast_row_ix2 (by decide), bcast_unit_row_ix2 (by decide),
    bcast_scalar_apply]
  rfl

/-- The program's comparison with one half and its choice between one and zero is `Cert.Gcn.thr`. -/
theorem thr_eq (H : FVec Ideal S50000x64 .f32) :
    id (select (cmpf .oge H (broadcastInDim S50000x64 ![] bcast_S_S50000x64 (constant (F := Ideal) S_ .f32 0x3F000000#32)))
      (broadcastInDim S50000x64 ![] bcast_S_S50000x64 (constant (F := Ideal) S_ .f32 0x3F800000#32))
      (broadcastInDim S50000x64 ![] bcast_S_S50000x64 (constant (F := Ideal) S_ .f32 0x00000000#32)))
      = Cert.Gcn.thr H := by
  funext i
  show select _ _ _ i = _
  rw [select_apply, cmpf_apply, bcast_scalar_apply, bcast_scalar_apply, bcast_scalar_apply]
  rfl

/-- The thresholded copy of a value equal to `H'` is `Cert.Gcn.thr H'`. -/
theorem thr_of_eq {H H' : FVec Ideal S50000x64 .f32} (hH : H = H') :
    id (select (cmpf .oge H (broadcastInDim S50000x64 ![] bcast_S_S50000x64 (constant (F := Ideal) S_ .f32 0x3F000000#32)))
      (broadcastInDim S50000x64 ![] bcast_S_S50000x64 (constant (F := Ideal) S_ .f32 0x3F800000#32))
      (broadcastInDim S50000x64 ![] bcast_S_S50000x64 (constant (F := Ideal) S_ .f32 0x00000000#32)))
      = Cert.Gcn.thr H' := by
  subst hH
  exact thr_eq _

/-- The printed dimension numbers of the feature product are those of a plain matrix product. -/
theorem plainDot : Cert.Lib.PlainDot dot_S50000x256_S256x64_S50000x64_1_0_0_1_n_n :=
  ⟨rfl, rfl, rfl, rfl, rfl, rfl⟩

/-- The degree normaliser of an index list: `(max 1 (number of edges at the node)) ^ (-1/2)`, node by node. -/
def norm (idx : IVec S1600000 32) : FVec Ideal S50000 .f32 :=
  Host.powf
    (maximumf (broadcastInDim S50000 ![] bcast_S_S50000 (id (constant S_ .f32 0x3F800000#32)))
      (Host.scatterAdd scatter_S50000_S1600000x1_S1600000_n_0_0_1
        (broadcastInDim S50000 ![] bcast_S_S50000 (constant S_ .f32 0x00000000#32))
        (broadcastInDim S1600000x1 ![0] bcast_S1600000_S1600000x1_0 idx)
        (broadcastInDim S1600000 ![] bcast_S_S1600000 (constant S_ .f32 0x3F800000#32))))
    (broadcastInDim S50000 ![] bcast_S_S50000 (constant S_ .f32 0xBF000000#32))

/-- The normaliser at a node is `(max 1 d) ^ (-1/2)` of the node's degree `d`. -/
theorem norm_apply (idx : IVec S1600000 32) (i : S50000.Idx) :
    norm idx i = Ideal.pow (max (Ideal.ofBits .f32 0x3F800000#32)
      (Host.scatterAdd (F := Ideal) scatter_S50000_S1600000x1_S1600000_n_0_0_1
        (broadcastInDim S50000 ![] bcast_S_S50000 (constant S_ .f32 0x00000000#32))
        (broadcastInDim S1600000x1 ![0] bcast_S1600000_S1600000x1_0 idx)
        (broadcastInDim S1600000 ![] bcast_S_S1600000 (constant S_ .f32 0x3F800000#32)) i))
      (Ideal.ofBits .f32 0xBF000000#32) := by
  unfold norm
  generalize Host.scatterAdd (F := Ideal) scatter_S50000_S1600000x1_S1600000_n_0_0_1 _ _ _ = d
  rw [hostPowf_apply, maximumf_apply, bcast_scalar_apply, bcast_scalar_apply, id_eq, constant_apply, constant_apply]

/-- Edge messages gathered at the (wrapped) source nodes and summed per destination node. -/
def agg (dst src : IVec S1600000 32) (f : FVec Ideal S50000x64 .f32) : FVec Ideal S50000x64 .f32 :=
  Host.scatterAdd scatter_S50000x64_S1600000x1_S1600000x64_1_0_0_1
    (broadcastInDim S50000x64 ![] bcast_S_S50000x64 (constant S_ .f32 0x00000000#32))
    (broadcastInDim S1600000x1 ![0] bcast_S1600000_S1600000x1_0 dst)
    (Host.gather gather_S50000x64_S1600000x1_S1600000x64_1_0_n_n_0_1_164 f
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

/-- The reference's node features: the rows scaled first, then the product. -/
def featR (x : FVec Ideal S50000x256 .f32) (src : IVec S1600000 32) (w : FVec Ideal S256x64 .f32) :
    FVec Ideal S50000x64 .f32 :=
  Host.dotGeneral dot_S50000x256_S256x64_S50000x64_1_0_0_1_n_n none
    (mulf x (broadcastInDim S50000x256 ![0, 1] bcast_S50000x1_S50000x256_0_1
      (broadcastInDim S50000x1 ![0] bcast_S50000_S50000x1_0 (norm src)))) w

/-- Entry `(p, q)` of the reference's features. -/
theorem featR_apply (x : FVec Ideal S50000x256 .f32) (src : IVec S1600000 32) (w : FVec Ideal S256x64 .f32)
    (p : Fin 50000) (q : Fin 64) :
    featR x src w (ix2 p q) = ∑ k : Fin 256, (x (ix2 p k) * norm src (ix1 p)) * w (ix2 k q) := by
  unfold featR
  generalize norm src = n
  refine (plainDot.dotGeneral_apply none .single _ _ p q).trans ?_
  refine Finset.sum_congr rfl fun k _ => ?_
  rw [mulf_apply, bcast_col_ix2 (by decide), Cert.LibPadRead.broadcastInDim_rows_ix2 (by decide)]

/-- The reference's run re-posted: the first result is the layer's output `Cert.Gcn.out`, the second its
    thresholded copy, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33)
          = Cert.Gcn.out (agg (m ((c.tc : Thread nD τ).loc main_arg2)) (m ((c.tc : Thread nD τ).loc main_arg1))
              (featR (m ((c.tc : Thread nD τ).loc main_arg0)) (m ((c.tc : Thread nD τ).loc main_arg1)) (m ((c.tc : Thread nD τ).loc main_arg3))))
            (norm (m ((c.tc : Thread nD τ).loc main_arg2))) (m ((c.tc : Thread nD τ).loc main_arg4))
      ∧ r.2.mem ((c.tc : Thread nD τ).loc main_v37)
          = Cert.Gcn.thr (Cert.Gcn.out (agg (m ((c.tc : Thread nD τ).loc main_arg2)) (m ((c.tc : Thread nD τ).loc main_arg1))
              (featR (m ((c.tc : Thread nD τ).loc main_arg0)) (m ((c.tc : Thread nD τ).loc main_arg1)) (m ((c.tc : Thread nD τ).loc main_arg3))))
            (norm (m ((c.tc : Thread nD τ).loc main_arg2))) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Cert.ReferenceIdeal.Value.run (F := Ideal) m ρ)
  obtain ⟨h33, h37, hargs⟩ := h c
  refine ⟨h33.trans ?_, h37.trans ?_, hargs⟩
  · unfold agg featR norm
    exact out_eq _ _ _
  · unfold agg featR norm
    exact thr_of_eq (out_eq _ _ _)

end Cert.ReferenceIdeal.RefValue

end
-- ==== Proof.Finite.lean ====
/-
  What the precondition says: every entry of the feature matrix and of the weight matrix is a real number.

  The precondition is the conjunction of three "all entries have absolute value below +∞" tests; an extended real
  whose absolute value is below `+∞` is neither infinity, so it is a real number.
-/
import proofs.«417162_j76201309766159_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

variable [Cert.Pre_finite_inputs.Facts]

/-- The result shape has no axis, hence exactly one index. -/
instance : Subsingleton S_.Idx := ⟨fun a b => funext fun d => d.elim0⟩

/-- The word `0x7F800000` is `+∞`. -/
private theorem top_word : Ideal.ofBits .f32 0x7F800000#32 = ⊤ := by
  simp [Ideal.ofBits, Ideal.ieee]

/-- An extended real whose absolute value `max a (-a)` is strictly below `+∞` is a real number:
    at `+∞` the absolute value is `+∞`, and at `-∞` its negation is. -/
private theorem real_of_test (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  rw [Ideal.hostAbsf_def, Ideal.cmpf_def, Ideal.absf_def, Ideal.ofBits_def, top_word] at h
  induction a using EReal.rec with
  | bot => simp [Ideal.cmp] at h
  | coe r => exact ⟨r, rfl⟩
  | top => simp [Ideal.cmp] at h

/-- If the finiteness test answers "true", the feature matrix and the weight matrix hold real numbers only. -/
theorem reals_of_fn (x : FVec Ideal S50000x256 .f32) (src dst : IVec S1600000 32) (w : FVec Ideal S256x64 .f32)
    (b : FVec Ideal S64 .f32) (h : fn (F := Ideal) x src dst w b = fun _ => 1#1) :
    (∀ i, ∃ r : ℝ, x i = (r : EReal)) ∧ (∀ i, ∃ r : ℝ, w i = (r : EReal)) := by
  -- the test's one result word is the conjunction of three "all entries" tests
  have h0 := congrFun h ValueIdx.ix0
  dsimp only [fn, andi] at h0
  obtain ⟨h12, _⟩ := IntOp.andi_eq_one.1 h0
  obtain ⟨hx, hw⟩ := IntOp.andi_eq_one.1 h12
  -- each "all entries" test that holds, holds at every entry
  exact ⟨fun i => real_of_test _ (Host.reduce_andi_all _ _ _ _ _ hx i),
    fun i => real_of_test _ (Host.reduce_andi_all _ _ _ _ _ hw i)⟩

end Cert.Pre_finite_inputs.Finite

end
-- ==== Proof.Algebra.lean ====
/-
  Two facts about the extended reals that the layer's two spellings meet at.

  The degree normaliser `(max 1 d) ^ (-1/2)` is a real number whatever extended real the degree `d` is: the base is
  at least one, so it is either a real number or `+∞`, and a negative power sends the first to a real and the second
  to `0`. And a real scale can be moved from a finite sum of products of reals onto the left factor of every
  term: over real numbers this is distributivity and commutativity, and no infinity arises.
-/
import proofs.«417162_j76201309766159_3_alg».proof.Proof.Spec
import Mathlib.Data.EReal.Basic
import Mathlib.Data.EReal.Operations
import Mathlib.Algebra.BigOperators.Ring.Finset
import Mathlib.Analysis.SpecialFunctions.Pow.Real

noncomputable section

open scoped BigOperators

namespace Cert.Gcn

open Idealize.ShloMosaic

/-- The word `0x3F800000` is the number one. -/
private theorem one_word : Ideal.ofBits .f32 0x3F800000#32 = 1 := by
  simp [Ideal.ofBits, Ideal.ieee, -EReal.coe_mul]; norm_num

/-- The word `0xBF000000` is minus one half. -/
private theorem neg_half_word : Ideal.ofBits .f32 0xBF000000#32 = ((-(1 / 2) : ℝ) : EReal) := by
  simp [Ideal.ofBits, Ideal.ieee, -EReal.coe_mul]; norm_num

/-- The normaliser of any degree is a real number. -/
theorem norm_real (d : EReal) :
    ∃ r : ℝ, Ideal.pow (max (Ideal.ofBits .f32 0x3F800000#32) d) (Ideal.ofBits .f32 0xBF000000#32) = (r : EReal) := by
  rw [one_word, neg_half_word]
  -- the base is at least one, so it is not `-∞`
  have h1 : (1 : EReal) ≤ max 1 d := le_max_left _ _
  generalize max (1 : EReal) d = m at h1 ⊢
  induction m using EReal.rec with
  | bot =>
    have hb : (1 : EReal) ≠ ⊥ := by rw [← EReal.coe_one]; exact EReal.coe_ne_bot 1
    exact absurd (le_bot_iff.mp h1) hb
  | coe r => exact ⟨Real.rpow r (-(1 / 2)), rfl⟩
  | top =>
    -- a negative, nonzero power of `+∞` is `0`
    refine ⟨0, ?_⟩
    have hneg : ¬ (0 : EReal) < ((-(1 / 2) : ℝ) : EReal) := by
      rw [EReal.coe_pos]; norm_num
    have hne : ((-(1 / 2) : ℝ) : EReal) ≠ 0 := by
      rw [Ne, EReal.coe_eq_zero]; norm_num
    rw [Ideal.pow_top, if_neg hneg, if_neg hne, EReal.coe_zero]

/-- The coercion of the reals into the extended reals commutes with finite sums. -/
private theorem coe_sum {K : Type*} (t : Finset K) (f : K → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A real scale moves from a finite sum of products of reals onto each term's left factor. -/
theorem scaled_dot {K : Type*} [Fintype K] (x w : K → EReal) (s : EReal) (hx : ∀ k, ∃ r : ℝ, x k = (r : EReal))
    (hw : ∀ k, ∃ r : ℝ, w k = (r : EReal)) (hs : ∃ r : ℝ, s = (r : EReal)) :
    (∑ k, x k * w k) * s = ∑ k, (x k * s) * w k := by
  choose x' hx using hx
  choose w' hw using hw
  obtain ⟨s', rfl⟩ := hs
  obtain rfl : x = fun k => (x' k : EReal) := funext hx
  obtain rfl : w = fun k => (w' k : EReal) := funext hw
  -- every product and the sum are real: compute over the reals
  simp only [← EReal.coe_mul, ← coe_sum]
  refine congrArg _ ?_
  rw [Finset.sum_mul]
  exact Finset.sum_congr rfl fun k _ => by ring

end Cert.Gcn

end
-- ==== Proof.FeatBridge.lean ====
/-
  The two spellings of the node features agree. The kernel multiplies the row's product with the weight column by
  the row's scale; the reference scales the row's entries first. With every entry and the scale a real number the two
  are equal, entry by entry.
-/
import proofs.«417162_j76201309766159_3_alg».proof.Proof.Spec
import proofs.«417162_j76201309766159_3_alg».proof.Proof.Algebra
import proofs.«417162_j76201309766159_3_alg».proof.Proof.LibRowReduce
import Idealize.ShloMosaic.Lib.ValueIdx
import Idealize.ShloMosaic.Lib.Pipeline.Value

noncomputable section

open scoped BigOperators

namespace Cert.Gcn

open Idealize.ShloMosaic Idealize.ShloMosaic.ValueIdx

/-- Entry `(p, q)` of the scaled product, with the scales given as a vector cast to a column: the sum of the
    row's entries, each scaled first, against the weight column. -/
theorem feat_scaled (x : (⟨2, ![50000, 256]⟩ : Shape).Idx → EReal) (N : (⟨1, ![50000]⟩ : Shape).Idx → EReal)
    (w : (⟨2, ![256, 64]⟩ : Shape).Idx → EReal) (h : (⟨1, ![50000]⟩ : Shape).ShapeCasts ⟨2, ![50000, 1]⟩)
    (hx : ∀ i, ∃ r : ℝ, x i = (r : EReal)) (hw : ∀ i, ∃ r : ℝ, w i = (r : EReal)) (hN : ∀ i, ∃ r : ℝ, N i = (r : EReal))
    (p : Fin 50000) (q : Fin 64) :
    feat x (shapeCast ⟨2, ![50000, 1]⟩ N h) w (ix2 p q) = ∑ k : Fin 256, (x (ix2 p k) * N (ix1 p)) * w (ix2 k q) := by
  -- the entry's row is `p` and its column is `q`
  show (∑ k : Fin 256, x (ix2 p k) * w (ix2 k q)) * shapeCast ⟨2, ![50000, 1]⟩ N h (ix2 p (0 : Fin 1)) = _
  -- the column's entry in row `p` is the vector's entry `p`
  rw [Cert.RowReduce.shapeCast_a_a1_apply N h p 0]
  -- all factors are real: move the scale onto each term's left factor
  exact scaled_dot (fun k => x (ix2 p k)) (fun k => w (ix2 k q)) (N (ix1 p)) (fun _ => hx _) (fun _ => hw _) (hN _)

end Cert.Gcn

end
-- ==== Proof.Bridge.lean ====
/-
  The two programs compute one function. The degree normalisers and the edge aggregation are the same host
  operations in both; the node features differ only in where the out-degree scale is applied — after the product with
  the weights in the kernel, on the input rows before it in the reference — and with real inputs and a real scale the
  two are equal entry by entry.
-/
import proofs.«417162_j76201309766159_3_alg».proof.Proof.KOut
import proofs.«417162_j76201309766159_3_alg».proof.Proof.RefSide
import proofs.«417162_j76201309766159_3_alg».proof.Proof.FeatBridge
import proofs.«417162_j76201309766159_3_alg».proof.Proof.Algebra

set_option maxRecDepth 16384

noncomputable section

open scoped BigOperators

namespace Cert.Proof.Bridge

open Idealize.ShloMosaic Idealize.ShloMosaic.TcCoe Idealize.SL.Sem
open Idealize.ShloMosaic.ValueIdx

/-- The two programs print the same dimension numbers for the degree histogram, -/
theorem sd1_eq : Cert.KernelIdeal.scatter_S50000_S1600000x1_S1600000_n_0_0_1
    = Cert.ReferenceIdeal.scatter_S50000_S1600000x1_S1600000_n_0_0_1 := rfl
/-- for the edge sum, -/
theorem sd2_eq : Cert.KernelIdeal.scatter_S50000x64_S1600000x1_S1600000x64_1_0_0_1
    = Cert.ReferenceIdeal.scatter_S50000x64_S1600000x1_S1600000x64_1_0_0_1 := rfl
/-- and for the edge gather. -/
theorem gd_eq : Cert.KernelIdeal.gather_S50000x64_S1600000x1_S1600000x64_1_0_n_n_0_1_164
    = Cert.ReferenceIdeal.gather_S50000x64_S1600000x1_S1600000x64_1_0_n_n_0_1_164 := rfl

/-- So the degree normaliser is one function in both, -/
theorem norm_eq (idx : IVec Cert.KernelIdeal.S1600000 32) :
    Cert.KernelIdeal.KValue.norm idx = Cert.ReferenceIdeal.RefValue.norm idx := by
  unfold Cert.KernelIdeal.KValue.norm Cert.ReferenceIdeal.RefValue.norm
  rw [sd1_eq]

/-- and so is the edge aggregation. -/
theorem agg_eq (dst src : IVec Cert.KernelIdeal.S1600000 32) (f : FVec Ideal Cert.KernelIdeal.S50000x64 .f32) :
    Cert.KernelIdeal.KValue.agg dst src f = Cert.ReferenceIdeal.RefValue.agg dst src f := by
  unfold Cert.KernelIdeal.KValue.agg Cert.ReferenceIdeal.RefValue.agg
  rw [sd2_eq, gd_eq]

/-- The normaliser is a real number at every node. -/
theorem norm_is_real (idx : IVec Cert.ReferenceIdeal.S1600000 32) (i : Cert.ReferenceIdeal.S50000.Idx) :
    ∃ r : ℝ, Cert.ReferenceIdeal.RefValue.norm idx i = (r : EReal) := by
  rw [Cert.ReferenceIdeal.RefValue.norm_apply]
  exact Cert.Gcn.norm_real _

/-- With real features and real weights, the scale applied after the product is the scale applied to the rows
    before it. -/
theorem feat_eq (x : FVec Ideal Cert.KernelIdeal.S50000x256 .f32) (src : IVec Cert.KernelIdeal.S1600000 32)
    (w : FVec Ideal Cert.KernelIdeal.S256x64 .f32)
    (hx : ∀ i, ∃ r : ℝ, x i = (r : EReal)) (hw : ∀ i, ∃ r : ℝ, w i = (r : EReal)) :
    Cert.Gcn.feat x (shapeCast Cert.KernelIdeal.S50000x1 (Cert.KernelIdeal.KValue.norm src)
        Cert.KernelIdeal.Facts₀.shapeCasts_S50000_S50000x1) w
      = Cert.ReferenceIdeal.RefValue.featR x src w := by
  funext i
  obtain ⟨p, q, rfl⟩ : ∃ (p : Fin 50000) (q : Fin 64), i = ix2 p q := ⟨i 0, i 1, eq_ix2 i⟩
  refine (Cert.Gcn.feat_scaled x (Cert.KernelIdeal.KValue.norm src) w _ hx hw
    (fun j => by rw [norm_eq]; exact norm_is_real src j) p q).trans ?_
  rw [Cert.ReferenceIdeal.RefValue.featR_apply, norm_eq]

/-- The layer's output of the kernel program is the reference's, for real features and weights. -/
theorem out_eq (x : FVec Ideal Cert.KernelIdeal.S50000x256 .f32) (src dst : IVec Cert.KernelIdeal.S1600000 32)
    (w : FVec Ideal Cert.KernelIdeal.S256x64 .f32) (b : FVec Ideal Cert.KernelIdeal.S64 .f32)
    (hx : ∀ i, ∃ r : ℝ, x i = (r : EReal)) (hw : ∀ i, ∃ r : ℝ, w i = (r : EReal)) :
    Cert.Gcn.out (Cert.ReferenceIdeal.RefValue.agg dst src (Cert.ReferenceIdeal.RefValue.featR x src w))
        (Cert.ReferenceIdeal.RefValue.norm dst) b
      = Cert.Gcn.out (Cert.KernelIdeal.KValue.agg dst src (Cert.Gcn.feat x
          (shapeCast Cert.KernelIdeal.S50000x1 (Cert.KernelIdeal.KValue.norm src)
            Cert.KernelIdeal.Facts₀.shapeCasts_S50000_S50000x1) w))
        (Cert.KernelIdeal.KValue.norm dst) b := by
  rw [feat_eq x src w hx hw, agg_eq, norm_eq]

end Cert.Proof.Bridge

end
-- ==== Proof.lean ====
/-
  The certificate of the graph-convolution layer: `relu (D_in^(-1/2) · A · D_out^(-1/2) · (X W) + b)` and its copy
  thresholded at one half, the Pallas program against its jnp reference.

  The program is two pallas_calls among host operations. The first computes the node features `(X W) · norm_src`
  (the product in one block of rows per grid point, the row scale applied to the product); the host gathers them
  along the edges and sums them per destination node; the second computes `max (agg · norm_dst + b) 0` and the
  threshold, on the arrays laid out two node rows per 128-lane row. The reference scales the rows of `X` by
  `norm_src` BEFORE the product and works in the node layout throughout.

  Over the extended reals the two agree: every change of float format is the identity; the degree normalisers
  and the gather-and-sum are the same host operations in both programs; the paired layout is a relabelling of
  positions; and the scale moves across the product because the features and weights are real numbers (the
  precondition) and the normaliser `(max 1 d) ^ (-1/2)` is a real number whatever the degree count `d` is.

  The frames of the two kernel programs are the generated ones; the reference's is its generated run with the
  results dropped. The idealization rewrote nothing, so `preserves` is `True`.
-/
import proofs.«417162_j76201309766159_3_alg».proof.Defs
import proofs.«417162_j76201309766159_3_alg».proof.Proof.Gen.Kernel
import proofs.«417162_j76201309766159_3_alg».proof.Proof.Gen.Kernel.Frame
import proofs.«417162_j76201309766159_3_alg».proof.Proof.Gen.KernelIdeal
import proofs.«417162_j76201309766159_3_alg».proof.Proof.Gen.KernelIdeal.Frame
import proofs.«417162_j76201309766159_3_alg».proof.Proof.Gen.ReferenceIdeal
import proofs.«417162_j76201309766159_3_alg».proof.Proof.Gen.Pre_finite_inputs
import proofs.«417162_j76201309766159_3_alg».proof.Proof.Gen.ReferenceIdeal.Run
import proofs.«417162_j76201309766159_3_alg».proof.Proof.Gen.ReferenceIdeal.Read
import proofs.«417162_j76201309766159_3_alg».proof.Proof.KRun
import proofs.«417162_j76201309766159_3_alg».proof.Proof.KOut
import proofs.«417162_j76201309766159_3_alg».proof.Proof.RefSide
import proofs.«417162_j76201309766159_3_alg».proof.Proof.Finite
import proofs.«417162_j76201309766159_3_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the layer's output and its thresholded copy, of arguments that agree. -/
theorem algebraic : Cert.algebraic_KernelIdeal_ReferenceIdeal := by
  intro m ρ m' ρ' hpre hagree
  refine ⟨fun c => Cert.KernelIdeal.KValue.outH m c, fun c => Cert.Gcn.thr (Cert.KernelIdeal.KValue.outH m c), ?_, ?_⟩
  · exact (θ_run (Cert.KernelIdeal.defs (F := Ideal)) _ _).mono
      (fun r h c => ⟨(h c).1.trans (Cert.KernelIdeal.KValue.res_h m ρ c),
        (h c).2.1.trans (Cert.KernelIdeal.KValue.res_c m ρ c), (h c).2.2⟩)
      (Cert.KernelIdeal.KRun.run_vals m ρ)
  · refine (θ_run (Cert.ReferenceIdeal.defs (F := Ideal)) _ _).mono
      (fun r h c => ⟨(h c).1.trans ?_, (h c).2.1.trans ?_, (h c).2.2⟩)
      (Cert.ReferenceIdeal.RefValue.run m' ρ')
    all_goals
      obtain ⟨a0, a1, a2, a3, a4⟩ := hagree c
      obtain ⟨hx, hw⟩ := Cert.Pre_finite_inputs.Finite.reals_of_fn _ _ _ _ _ (hpre c)
      rw [a0, a1, a2, a3, a4]
    · exact Cert.Proof.Bridge.out_eq _ _ _ _ _ hx hw
    · exact congrArg Cert.Gcn.thr (Cert.Proof.Bridge.out_eq _ _ _ _ _ hx hw)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
